-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_arg8 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S4096x1024 .f32) (main_arg5 : FVec F S4096 .f32) (main_arg6 : FVec F S4096 .f32) (main_arg7 : FVec F S4096 .f32) (main_arg8 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096 .f32) (main_arg6 : FVec F S4096 .f32) (main_arg7 : FVec F S4096 .f32) (main_arg8 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096 : Shape := ⟨1, ![4096]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 19
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S1024x4096, .f32⟩
  | .hbm, ⟨10, _⟩ => ⟨S1024x4096, .bf16⟩
  | .hbm, ⟨11, _⟩ => ⟨S1024x4096, .f32⟩
  | .hbm, ⟨12, _⟩ => ⟨S1024x4096, .bf16⟩
  | .hbm, ⟨13, _⟩ => ⟨S4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S4096x1024, .f32⟩
  | .hbm, ⟨18, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .f32 = 32 ∨ (Rect.block (s := S4096x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .f32 = 32 ∨ (Rect.block (s := S4096x1024) S256x1024.size (cc0_transform_9 i) (hinb0_9 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩
abbrev S4096x1 : Shape := ⟨2, ![4096, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x4096, .f32⟩
  | .hbm, ⟨40, _⟩ => ⟨S4096x4096, .f32⟩
  | .hbm, ⟨41, _⟩ => ⟨S1x4096, .f32⟩
  | .hbm, ⟨42, _⟩ => ⟨S4096x4096, .f32⟩
  | .hbm, ⟨43, _⟩ => ⟨S4096x4096, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.Spec.lean ====
/-
  The layer-normalised LSTM cell, row by row, over the extended reals.

  A row of the batch has an input row `xr` and a hidden row `hr` (1024 entries each) and a cell row `cr` (1024 entries).
  Its 4096 gate pre-activations are `pre`: for gate column `g` the two inner products with row `g` of the two weight
  matrices, plus the bias at `g`. They are normalised over the gate axis (`mean`, `var`, `scaled`: subtract the mean,
  multiply by the reciprocal square root of the variance plus a small constant, multiply by the gain), a shift is added,
  and the four bands of 1024 columns (input, forget, cell, output gates, in that order) give the new cell row
  `cellC` = σ(f)·c + σ(i)·tanh(g) and the new hidden row `cellH` = σ(o)·tanh(new cell). `newC` and `newH` are the two
  result arrays as functions of the nine argument arrays, index by index.

  The two float constants are kept as their bit patterns: both programs spell the same words, so they are never evaluated.
-/
import Idealize.ShloMosaic.PureOps.Ideal
import Idealize.ShloMosaic.Lib.ValueIdx

noncomputable section

namespace Cert.LnLstm

open Idealize.ShloMosaic Idealize.ShloMosaic.ValueIdx

/-- The number of gate columns, 4096, as the float both programs divide by. -/
abbrev nGates : EReal := Ideal.ofBits .f32 0x45800000#32
/-- The small constant added to the variance. -/
abbrev eps : EReal := Ideal.ofBits .f32 0x3727C5AC#32

/-- Gate column `g` of one row before normalisation: ⟨xr, wi g⟩ + ⟨hr, wh g⟩ + b g. -/
def pre (xr hr : Fin 1024 → EReal) (wi wh : Fin 4096 → Fin 1024 → EReal) (b : Fin 4096 → EReal) (g : Fin 4096) : EReal :=
  (∑ k : Fin 1024, xr k * wi g k + ∑ k : Fin 1024, hr k * wh g k) + b g

/-- The mean of a row of 4096 values. -/
def mean (z : Fin 4096 → EReal) : EReal := Ideal.div (∑ g : Fin 4096, z g) nGates

/-- The mean squared deviation of a row from its mean. -/
def var (z : Fin 4096 → EReal) : EReal := Ideal.div (∑ g : Fin 4096, (z g - mean z) * (z g - mean z)) nGates

/-- The row centred, scaled to unit variance and multiplied by the gain `γ`, at column `g`. -/
def scaled (z γ : Fin 4096 → EReal) (g : Fin 4096) : EReal := (z g - mean z) * Ideal.rsqrt (var z + eps) * γ g

/-- Column `j` of the band of 1024 gate columns that starts at column `o`. -/
def col (o : ℕ) (ho : o + 1024 ≤ 4096) (j : Fin 1024) : Fin 4096 := ⟨j.val + o, by have := j.isLt; omega⟩

/-- The new cell value at column `j` from the normalised gates `n` of the row and the row's old cell values. -/
def cellC (n : Fin 4096 → EReal) (cr : Fin 1024 → EReal) (j : Fin 1024) : EReal :=
  Ideal.logistic (n (col 1024 (by omega) j)) * cr j + Ideal.logistic (n (col 0 (by omega) j)) * Ideal.tanh (n (col 2048 (by omega) j))

/-- The new hidden value at column `j`. -/
def cellH (n : Fin 4096 → EReal) (cr : Fin 1024 → EReal) (j : Fin 1024) : EReal :=
  Ideal.logistic (n (col 3072 (by omega) j)) * Ideal.tanh (cellC n cr j)

/-- The normalised, gained and shifted gates of batch row `r`, from the argument arrays. -/
def gatesRow (x h wi wh : (⟨2, ![4096, 1024]⟩ : Shape).Idx → EReal) (b1 b2 γ β : (⟨1, ![4096]⟩ : Shape).Idx → EReal)
    (r : Fin 4096) (g : Fin 4096) : EReal :=
  scaled (pre (fun k => x (ix2 r k)) (fun k => h (ix2 r k)) (fun g k => wi (ix2 g k)) (fun g k => wh (ix2 g k))
      (fun g => b1 (ix1 g) + b2 (ix1 g))) (fun g => γ (ix1 g)) g + β (ix1 g)

/-- The new cell array. -/
def newC (x h c wi wh : (⟨2, ![4096, 1024]⟩ : Shape).Idx → EReal) (b1 b2 γ β : (⟨1, ![4096]⟩ : Shape).Idx → EReal) :
    (⟨2, ![4096, 1024]⟩ : Shape).Idx → EReal := fun i =>
  cellC (gatesRow x h wi wh b1 b2 γ β (i 0)) (fun j => c (ix2 (i 0) j)) (i 1)

/-- The new hidden array. -/
def newH (x h c wi wh : (⟨2, ![4096, 1024]⟩ : Shape).Idx → EReal) (b1 b2 γ β : (⟨1, ![4096]⟩ : Shape).Idx → EReal) :
    (⟨2, ![4096, 1024]⟩ : Shape).Idx → EReal := fun i =>
  cellH (gatesRow x h wi wh b1 b2 γ β (i 0)) (fun j => c (ix2 (i 0) j)) (i 1)

end Cert.LnLstm

end
-- ==== Proof.LibColumnForms.lean ====
/-
  General lemmas for kernels that keep a reduced axis as a unit axis (`keepdims`) and for one-axis minima, read at an index.

  * `shapeCast_a_a1_apply`: an `[a]` array cast to a column `[a, 1]`, read at `(i, u)`, is the operand at `i`.
  * `broadcastTo_a1_ab_apply`: a column `[a, 1]` broadcast to `[a, b]`, read at `(p, c)`, is the column at `p`.
  * `shapeCast_a1b_ab_apply`: an `[a, 1, b]` array cast to `[a, b]`, read at `(i, j)`, is the operand at `(i, 0, j)`.
  * `lift_axis1`, `lift_axis0`: the source index of a rank-2 reduction along axis 1 (along axis 0) over a lane, with the
    reduced coordinate inserted, by coordinates.
  * `multiReduction_minimumf_single`: a float `vector.multi_reduction <minimumf>` over one axis at the ideal values is
    the fold of `min` from the accumulator's value over that axis's coordinates (the library states this for
    `<maximumf>`).
  Generic in the extents; nothing here mentions a program.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ColumnForms

open Idealize.ShloMosaic Idealize.ShloMosaic.ValueIdx

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`: the same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Layout

section Reduce

/-- The source index over lane `r` of a reduction along axis 1 with coordinate `k` inserted is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The source index over lane `c` of a reduction along axis 0 with coordinate `k` inserted is `(k, c)`. -/
theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

/-- A float `vector.multi_reduction <minimumf>` over one axis, read at the ideal values: the fold of `min` from the
    accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

end Reduce

end Cert.ColumnForms

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.KernelPayload.lean ====
/-
  The kernel's arithmetic on one block of 256 batch rows, read entry by entry over the extended reals.

  The body first forms the 256 × 4096 gate pre-activations of the block (`blockPre`: two matrix products with the
  resident weight matrices, already transposed, plus the bias row), then centres and scales every row over its 4096
  columns (`rowMean` is a row's sum divided by 4096, kept as a column; `blockScaled` subtracts it, multiplies by the
  reciprocal square root of the mean squared deviation plus the small constant, and multiplies by the gain row).
  Entry (p, g) of that is `scaled` of row p's pre-activations at g (`blockScaled_apply`, `blockPre_apply`); a change of
  float format is the identity here, a lane sum is a finite sum, a matrix product a finite sum of products.
  The two stored values are then the cell update of the four column bands plus the shift row: `newCell_apply`,
  `newHidden_apply`.
-/
import proofs.«140336_j55903294325169_1_alg».proof.Proof.Gen.KernelIdeal.Skeleton
import proofs.«140336_j55903294325169_1_alg».proof.Proof.Spec
import proofs.«140336_j55903294325169_1_alg».proof.Proof.LibColumnForms
import proofs.«140336_j55903294325169_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.LnLstm.KernelValue

open Idealize.ShloMosaic Idealize.ShloMosaic.ValueIdx Cert.KernelIdeal Cert.KernelIdeal.Gen Cert.LnLstm

/-- The printed contraction record is the plain one: rows by columns, contracted on the shared middle axis. -/
theorem dot_eq_plain : dot_S256x1024_S1024x4096_S256x4096_1_0_0_1_n_n = DotDims.plain 256 1024 4096 := rfl

/-- The gate pre-activations of a block: x·Wi + h·Wh + bias, the weights as [1024, 4096] matrices, the bias a row. -/
def blockPre (P0 P1 : FVec Ideal S256x1024 .f32) (P2 P3 : FVec Ideal S1024x4096 .bf16) (P4 : FVec Ideal S1x4096 .f32) :
    FVec Ideal S256x4096 .f32 :=
  addf (addf
      (matmul dot_S256x1024_S1024x4096_S256x4096_1_0_0_1_n_n none (truncf .bf16 P0 bitsLt_bf16_f32)
        (shapeCast S1024x4096 P2 shapeCasts_S1024x4096_S1024x4096) (constant S256x4096 .f32 0x00000000#32))
      (matmul dot_S256x1024_S1024x4096_S256x4096_1_0_0_1_n_n none (truncf .bf16 P1 bitsLt_bf16_f32)
        (shapeCast S1024x4096 P3 shapeCasts_S1024x4096_S1024x4096) (constant S256x4096 .f32 0x00000000#32)))
    (broadcastTo S256x4096 (shapeCast S1x4096 P4 shapeCasts_S1x4096_S1x4096) broadcasts_S1x4096_S256x4096)

/-- Each row's sum over its 4096 columns divided by 4096, kept as a column. -/
def rowMean (Z : FVec Ideal S256x4096 .f32) : FVec Ideal S256x1 .f32 :=
  divf (shapeCast S256x1 (multiReduction .add [1] S256 Z 0x00000000#32 reduces_S256x4096_S256 (.inl rfl) rfl) shapeCasts_S256_S256x1)
    (broadcast S256x1 (Scalar.ofBits .f32 0x45800000#32))

/-- The block centred by its row means. -/
def centred (Z : FVec Ideal S256x4096 .f32) : FVec Ideal S256x4096 .f32 :=
  subf Z (broadcastTo S256x4096 (rowMean Z) broadcasts_S256x1_S256x4096)

/-- The block centred, scaled row by row to unit variance and multiplied by the gain row. -/
def blockScaled (Z : FVec Ideal S256x4096 .f32) (P5 : FVec Ideal S1x4096 .f32) : FVec Ideal S256x4096 .f32 :=
  mulf (mulf (centred Z)
      (broadcastTo S256x4096 (rsqrt (addf (rowMean (mulf (centred Z) (centred Z))) (broadcast S256x1 (Scalar.ofBits .f32 0x3727C5AC#32))))
        broadcasts_S256x1_S256x4096))
    (broadcastTo S256x4096 (shapeCast S1x4096 P5 shapeCasts_S1x4096_S1x4096) broadcasts_S1x4096_S256x4096)

/-- The first payload is the scaled block of the pre-activations. -/
theorem pay4_eq (P0 P1 : FVec Ideal S256x1024 .f32) (P2 P3 : FVec Ideal S1024x4096 .bf16) (P4 P5 : FVec Ideal S1x4096 .f32) :
    k0_pay4 P0 P1 P2 P3 P4 P5 = blockScaled (blockPre P0 P1 P2 P3 P4) P5 := rfl

/-- Entry (p, g) of the pre-activations: the two inner products of row p with column g of the weights, plus the bias. -/
theorem blockPre_apply (P0 P1 : FVec Ideal S256x1024 .f32) (P2 P3 : FVec Ideal S1024x4096 .bf16) (P4 : FVec Ideal S1x4096 .f32)
    (p : Fin 256) (g : Fin 4096) :
    blockPre P0 P1 P2 P3 P4 (ix2 p g)
      = pre (fun k => P0 (ix2 p k)) (fun k => P1 (ix2 p k)) (fun g k => P2 (ix2 k g)) (fun g k => P3 (ix2 k g))
          (fun g => P4 (ix2 (0 : Fin 1) g)) g := by
  unfold blockPre pre
  rw [dot_eq_plain, shapeCast_self, shapeCast_self, shapeCast_self, addf_apply, addf_apply]
  refine congrArg₂ (· + ·) (congrArg₂ (· + ·) ?_ ?_) ?_
  · exact Idealize.ShloMosaic.MatmulPlain.matmul_zero_apply none (truncf .bf16 P0 bitsLt_bf16_f32) P2 p g
  · exact Idealize.ShloMosaic.MatmulPlain.matmul_zero_apply none (truncf .bf16 P1 bitsLt_bf16_f32) P3 p g
  · exact broadcastTo_1b_ab_apply P4 broadcasts_S1x4096_S256x4096 p g

/-- A row's mean: its finite sum over the 4096 columns divided by 4096. -/
theorem rowMean_apply (Z : FVec Ideal S256x4096 .f32) (p : Fin 256) :
    rowMean Z (ix2 p (0 : Fin 1)) = mean (fun g => Z (ix2 p g)) := by
  unfold rowMean mean
  rw [divf_apply]
  refine congrArg₂ Ideal.div ?_ rfl
  refine (Cert.ColumnForms.shapeCast_a_a1_apply _ shapeCasts_S256_S256x1 p (0 : Fin 1)).trans ?_
  refine (Ideal.multiReduction_add_single Z 0x00000000#32 reduces_S256x4096_S256 (.inl rfl) rfl (ix1 p)).trans ?_
  exact Finset.sum_congr rfl fun k _ => congrArg Z (Cert.ColumnForms.lift_axis1 reduces_S256x4096_S256 p k)

/-- Entry (p, g) of the centred block. -/
theorem centred_apply (Z : FVec Ideal S256x4096 .f32) (p : Fin 256) (g : Fin 4096) :
    centred Z (ix2 p g) = Z (ix2 p g) - mean (fun g => Z (ix2 p g)) := by
  unfold centred
  rw [subf_apply]
  refine congrArg (Z (ix2 p g) - ·) ?_
  exact (Cert.ColumnForms.broadcastTo_a1_ab_apply _ broadcasts_S256x1_S256x4096 p g).trans (rowMean_apply Z p)

/-- Entry (p, g) of the scaled block is `scaled` of row p at g. -/
theorem blockScaled_apply (Z : FVec Ideal S256x4096 .f32) (P5 : FVec Ideal S1x4096 .f32) (p : Fin 256) (g : Fin 4096) :
    blockScaled Z P5 (ix2 p g) = scaled (fun g => Z (ix2 p g)) (fun g => P5 (ix2 (0 : Fin 1) g)) g := by
  unfold blockScaled scaled
  rw [mulf_apply, mulf_apply, shapeCast_self]
  refine congrArg₂ (· * ·) (congrArg₂ (· * ·) (centred_apply Z p g) ?_) (broadcastTo_1b_ab_apply P5 broadcasts_S1x4096_S256x4096 p g)
  refine (Cert.ColumnForms.broadcastTo_a1_ab_apply _ broadcasts_S256x1_S256x4096 p g).trans ?_
  show Ideal.rsqrt (rowMean (mulf (centred Z) (centred Z)) (ix2 p (0 : Fin 1)) + eps) = _
  rw [rowMean_apply]
  unfold var
  refine congrArg (fun s => Ideal.rsqrt (mean s + eps)) ?_
  funext g'
  rw [mulf_apply, centred_apply]

/-- The scaled block plus the shift row, at entry (p, g). -/
theorem shifted_apply (S : FVec Ideal S256x4096 .f32) (P6 : FVec Ideal S1x4096 .f32) (p : Fin 256) (g : Fin 4096) :
    k0_pay1 S P6 (ix2 p g) = S (ix2 p g) + P6 (ix2 (0 : Fin 1) g) := by
  show addf S (broadcastTo S256x4096 (shapeCast S1x4096 P6 shapeCasts_S1x4096_S1x4096) broadcasts_S1x4096_S256x4096) (ix2 p g) = _
  rw [addf_apply, shapeCast_self]
  exact congrArg (S (ix2 p g) + ·) (broadcastTo_1b_ab_apply P6 broadcasts_S1x4096_S256x4096 p g)

/-- The band of 1024 columns starting at column `o`, at entry (p, j): the block at column `col o j`. -/
theorem band_apply (o : ℕ) (ho : o + 1024 ≤ 4096) (X : FVec Ideal S256x4096 .f32) (h : S256x4096.Slices ![0, o] S256x1024)
    (p : Fin 256) (j : Fin 1024) :
    extractStridedSlice S256x1024 ![0, o] X h (ix2 p j) = X (ix2 p (col o ho j)) :=
  slice2_axis1_apply o X h p j (col o ho j) (by show j.val + o = o + j.val; omega)

/-- The value stored to the new-cell window, at entry (p, j). -/
theorem newCell_apply (S : FVec Ideal S256x4096 .f32) (P6 : FVec Ideal S1x4096 .f32) (P7 : FVec Ideal S256x1024 .f32)
    (p : Fin 256) (j : Fin 1024) :
    k0_pay2 S P6 P7 (ix2 p j) = cellC (fun g => S (ix2 p g) + P6 (ix2 (0 : Fin 1) g)) (fun j => P7 (ix2 p j)) j := by
  unfold cellC
  show Ideal.logistic (extractStridedSlice S256x1024 ![0, 1024] (k0_pay1 S P6) slices_S256x4096_o0_1024_S256x1024 (ix2 p j)) * P7 (ix2 p j)
      + Ideal.logistic (extractStridedSlice S256x1024 ![0, 0] (k0_pay1 S P6) slices_S256x4096_o0_0_S256x1024 (ix2 p j))
        * Ideal.tanh (extractStridedSlice S256x1024 ![0, 2048] (k0_pay1 S P6) slices_S256x4096_o0_2048_S256x1024 (ix2 p j)) = _
  rw [band_apply 1024 (by omega), band_apply 0 (by omega), band_apply 2048 (by omega), shifted_apply, shifted_apply, shifted_apply]

/-- The value stored to the new-hidden window, at entry (p, j). -/
theorem newHidden_apply (S : FVec Ideal S256x4096 .f32) (P6 : FVec Ideal S1x4096 .f32) (P7 : FVec Ideal S256x1024 .f32)
    (p : Fin 256) (j : Fin 1024) :
    k0_pay3 S P6 P7 (ix2 p j) = cellH (fun g => S (ix2 p g) + P6 (ix2 (0 : Fin 1) g)) (fun j => P7 (ix2 p j)) j := by
  unfold cellH
  show Ideal.logistic (extractStridedSlice S256x1024 ![0, 3072] (k0_pay1 S P6) slices_S256x4096_o0_3072_S256x1024 (ix2 p j))
      * Ideal.tanh (k0_pay2 S P6 P7 (ix2 p j)) = _
  rw [band_apply 3072 (by omega), shifted_apply, newCell_apply]

/-- Row p of the block's normalised, gained and shifted gates, from the loaded blocks. -/
def blockGates (P0 P1 : FVec Ideal S256x1024 .f32) (P2 P3 : FVec Ideal S1024x4096 .bf16) (P4 P5 P6 : FVec Ideal S1x4096 .f32)
    (p : Fin 256) (g : Fin 4096) : EReal :=
  scaled (pre (fun k => P0 (ix2 p k)) (fun k => P1 (ix2 p k)) (fun g k => P2 (ix2 k g)) (fun g k => P3 (ix2 k g))
      (fun g => P4 (ix2 (0 : Fin 1) g))) (fun g => P5 (ix2 (0 : Fin 1) g)) g + P6 (ix2 (0 : Fin 1) g)

theorem gates_eq (P0 P1 : FVec Ideal S256x1024 .f32) (P2 P3 : FVec Ideal S1024x4096 .bf16) (P4 P5 P6 : FVec Ideal S1x4096 .f32)
    (p : Fin 256) :
    (fun g => k0_pay4 P0 P1 P2 P3 P4 P5 (ix2 p g) + P6 (ix2 (0 : Fin 1) g)) = blockGates P0 P1 P2 P3 P4 P5 P6 p := by
  funext g
  unfold blockGates
  rw [pay4_eq, blockScaled_apply]
  refine congrArg (fun z => scaled z (fun g => P5 (ix2 (0 : Fin 1) g)) g + P6 (ix2 (0 : Fin 1) g)) ?_
  funext g'
  exact blockPre_apply P0 P1 P2 P3 P4 p g'

/-- What the body stores to the new-hidden window, entry by entry, from the loaded blocks. -/
theorem storedH_apply (P0 P1 : FVec Ideal S256x1024 .f32) (P2 P3 : FVec Ideal S1024x4096 .bf16) (P4 P5 P6 : FVec Ideal S1x4096 .f32)
    (P7 : FVec Ideal S256x1024 .f32) (p : Fin 256) (j : Fin 1024) :
    k0_pay3 (F := Ideal) (k0_pay4 P0 P1 P2 P3 P4 P5) P6 P7 (ix2 p j) = cellH (blockGates P0 P1 P2 P3 P4 P5 P6 p) (fun j => P7 (ix2 p j)) j := by
  rw [newHidden_apply, gates_eq]

/-- What the body stores to the new-cell window, entry by entry, from the loaded blocks. -/
theorem storedC_apply (P0 P1 : FVec Ideal S256x1024 .f32) (P2 P3 : FVec Ideal S1024x4096 .bf16) (P4 P5 P6 : FVec Ideal S1x4096 .f32)
    (P7 : FVec Ideal S256x1024 .f32) (p : Fin 256) (j : Fin 1024) :
    k0_pay2 (F := Ideal) (k0_pay4 P0 P1 P2 P3 P4 P5) P6 P7 (ix2 p j) = cellC (blockGates P0 P1 P2 P3 P4 P5 P6 p) (fun j => P7 (ix2 p j)) j := by
  rw [newCell_apply, gates_eq]

end Cert.LnLstm.KernelValue

end
-- ==== Proof.KernelArray.lean ====
/-
  From blocks to arrays: what the kernel's two result arrays hold after the run.

  The grid has 16 points; point t works on the band of 256 batch rows t·256 … t·256 + 255. Its three row-banded inputs are
  that band of the input, hidden and cell arrays; the two weight matrices (transposed by the host before the launch), the
  bias row (the host's sum of the two bias vectors) and the gain and shift rows are whole at every point. So what point t
  writes back to each result window is the band t of `newH` (respectively `newC`) of the nine argument arrays
  (`flushedH_eq`, `flushedC_eq`); the sixteen bands tile the arrays (`coveredH`, `coveredC`), so after the run the two
  result arrays ARE `newH` and `newC` of the arguments (`finalH`, `finalC`, `run`).
-/
import proofs.«140336_j55903294325169_1_alg».proof.Proof.KernelBlocks
import proofs.«140336_j55903294325169_1_alg».proof.Proof.KernelPayload
import proofs.«140336_j55903294325169_1_alg».proof.Proof.Spec
import Idealize.ShloMosaic.Lib.StableHlo.Run
import Idealize.ShloMosaic.Lib.ValueLayout

noncomputable section

namespace Cert.LnLstm.KernelArray

open Idealize.ShloMosaic Idealize.ShloMosaic.ValueIdx Idealize.ShloMosaic.TcCoe Idealize.SL.Sem
open Cert.KernelIdeal Cert.KernelIdeal.Gen Cert.LnLstm Cert.LnLstm.KernelValue
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps, decided over the 16 grid points: the three banded inputs move with the result windows along
    the batch axis, every other coordinate of every window is 0, and the band number is below 16. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_9.index t (0 : Fin 2) = win0_8.index t (0 : Fin 2) ∧ win0_9.index t (1 : Fin 2) = 0
    ∧ win0_8.index t (1 : Fin 2) = 0 ∧ win0_8.index t (0 : Fin 2) ≤ 15 :=
  (by decide +kernel : ∀ t : Fin grid0.N, _)

/-- Every band is some point's. -/
theorem idx_onto : ∀ q0 : Fin 16, ∃ t : Fin cfg0.N, win0_8.index t = ![q0.val, 0] :=
  (by decide +kernel : ∀ q0 : Fin 16, ∃ t : Fin grid0.N, win0_8.index t = ![q0.val, 0])

/-! ## The argument arrays and the blocks, at their literal types -/

abbrev argX (c : Dev nD) : S4096x1024.Idx → EReal := m ((c : Thread nD τ).loc main_arg0)
abbrev argH (c : Dev nD) : S4096x1024.Idx → EReal := m ((c : Thread nD τ).loc main_arg1)
abbrev argC (c : Dev nD) : S4096x1024.Idx → EReal := m ((c : Thread nD τ).loc main_arg2)
abbrev argWi (c : Dev nD) : S4096x1024.Idx → EReal := m ((c : Thread nD τ).loc main_arg3)
abbrev argWh (c : Dev nD) : S4096x1024.Idx → EReal := m ((c : Thread nD τ).loc main_arg4)
abbrev argB1 (c : Dev nD) : S4096.Idx → EReal := m ((c : Thread nD τ).loc main_arg5)
abbrev argB2 (c : Dev nD) : S4096.Idx → EReal := m ((c : Thread nD τ).loc main_arg6)
abbrev argG (c : Dev nD) : S4096.Idx → EReal := m ((c : Thread nD τ).loc main_arg7)
abbrev argS (c : Dev nD) : S4096.Idx → EReal := m ((c : Thread nD τ).loc main_arg8)

abbrev blkX (c : Dev nD) (t : Fin cfg0.N) : FVec Ideal S256x1024 .f32 := iblk m c 0 t
abbrev blkH (c : Dev nD) (t : Fin cfg0.N) : FVec Ideal S256x1024 .f32 := iblk m c 1 t
abbrev blkC (c : Dev nD) (t : Fin cfg0.N) : FVec Ideal S256x1024 .f32 := iblk m c 2 t
abbrev blkWi (c : Dev nD) (t : Fin cfg0.N) : FVec Ideal S1024x4096 .bf16 := iblk m c 3 t
abbrev blkWh (c : Dev nD) (t : Fin cfg0.N) : FVec Ideal S1024x4096 .bf16 := iblk m c 4 t
abbrev blkB (c : Dev nD) (t : Fin cfg0.N) : FVec Ideal S1x4096 .f32 := iblk m c 5 t
abbrev blkG (c : Dev nD) (t : Fin cfg0.N) : FVec Ideal S1x4096 .f32 := iblk m c 6 t
abbrev blkS (c : Dev nD) (t : Fin cfg0.N) : FVec Ideal S1x4096 .f32 := iblk m c 7 t

/-! ## The arrays the host operations wrote before the launch -/

/-- The first weight matrix as the region finds it: the argument transposed (the change of float format is the identity). -/
theorem hostWi (c : Dev nD) (k : Fin 1024) (g : Fin 4096) :
    (V m c main_v1 : S1024x4096.Idx → EReal) (ix2 k g) = argWi m c (ix2 g k) := by
  have e : @Eq (FVec Ideal S1024x4096 .bf16) (V m c main_v1)
      (truncf .bf16 (transpose S1024x4096 [1, 0] (argWi m c) transposes_S4096x1024_S1024x4096_1_0) bitsLt_bf16_f32) := by
    dsimp only [Gen.V, Gen.hostOps0]; after_results
  rw [e]
  exact transpose_ix2_apply (argWi m c) transposes_S4096x1024_S1024x4096_1_0 k g

theorem hostWh (c : Dev nD) (k : Fin 1024) (g : Fin 4096) :
    (V m c main_v3 : S1024x4096.Idx → EReal) (ix2 k g) = argWh m c (ix2 g k) := by
  have e : @Eq (FVec Ideal S1024x4096 .bf16) (V m c main_v3)
      (truncf .bf16 (transpose S1024x4096 [1, 0] (argWh m c) transposes_S4096x1024_S1024x4096_1_0) bitsLt_bf16_f32) := by
    dsimp only [Gen.V, Gen.hostOps0]; after_results
  rw [e]
  exact transpose_ix2_apply (argWh m c) transposes_S4096x1024_S1024x4096_1_0 k g

/-- The bias row as the region finds it: the sum of the two bias vectors, laid as one row. -/
theorem hostB (c : Dev nD) (g : Fin 4096) :
    (V m c main_v5 : S1x4096.Idx → EReal) (ix2 (0 : Fin 1) g) = argB1 m c (ix1 g) + argB2 m c (ix1 g) := by
  have e : @Eq (FVec Ideal S1x4096 .f32) (V m c main_v5)
      (shapeCast S1x4096 (addf (F := Ideal) (φ := .f32) (argB1 m c) (argB2 m c)) shapeCasts_S4096_S1x4096) := by
    dsimp only [Gen.V, Gen.hostOps0]; after_results; rfl
  rw [e]
  exact shapeCast_a_1a_apply _ shapeCasts_S4096_S1x4096 (0 : Fin 1) g

theorem hostG (c : Dev nD) (g : Fin 4096) :
    (V m c main_v6 : S1x4096.Idx → EReal) (ix2 (0 : Fin 1) g) = argG m c (ix1 g) := by
  have e : @Eq (FVec Ideal S1x4096 .f32) (V m c main_v6) (shapeCast S1x4096 (argG m c) shapeCasts_S4096_S1x4096) := by
    dsimp only [Gen.V, Gen.hostOps0]; after_results; rfl
  rw [e]
  exact shapeCast_a_1a_apply _ shapeCasts_S4096_S1x4096 (0 : Fin 1) g

theorem hostS (c : Dev nD) (g : Fin 4096) :
    (V m c main_v7 : S1x4096.Idx → EReal) (ix2 (0 : Fin 1) g) = argS m c (ix1 g) := by
  have e : @Eq (FVec Ideal S1x4096 .f32) (V m c main_v7) (shapeCast S1x4096 (argS m c) shapeCasts_S4096_S1x4096) := by
    dsimp only [Gen.V, Gen.hostOps0]; after_results; rfl
  rw [e]
  exact shapeCast_a_1a_apply _ shapeCasts_S4096_S1x4096 (0 : Fin 1) g

/-- Every band of the new-cell window is some point's. -/
theorem idx_ontoC : ∀ q0 : Fin 16, ∃ t : Fin cfg0.N, win0_9.index t = ![q0.val, 0] :=
  (by decide +kernel : ∀ q0 : Fin 16, ∃ t : Fin grid0.N, win0_9.index t = ![q0.val, 0])

/-! ## Each window's block, read at an entry -/

/-- A banded block at (p, k) is its array at (R, k), where R is row p of the point's band. -/
theorem blkX_apply (c : Dev nD) (t : Fin cfg0.N) (p : Fin 256) (k : Fin 1024) (R : Fin 4096)
    (hR : R.val = win0_8.index t (0 : Fin 2) * 256 + p.val) : blkX m c t (ix2 p k) = argX m c (ix2 R k) := by
  obtain ⟨e00, e01, -⟩ := idx_facts t
  show V m c main_arg0 (((cfg0.win 0).blk t).view.emb (ix2 p k : S256x1024.Idx)) = _
  rw [V_main_arg0]
  refine congrArg (argX m c) (funext fun a => Fin.ext ?_)
  match a with
  | ⟨0, _⟩ => show win0_0.index t (0 : Fin 2) * 256 + 1 * p.val = R.val; omega
  | ⟨1, _⟩ => show win0_0.index t (1 : Fin 2) * 1024 + 1 * k.val = k.val; omega

theorem blkH_apply (c : Dev nD) (t : Fin cfg0.N) (p : Fin 256) (k : Fin 1024) (R : Fin 4096)
    (hR : R.val = win0_8.index t (0 : Fin 2) * 256 + p.val) : blkH m c t (ix2 p k) = argH m c (ix2 R k) := by
  obtain ⟨-, -, e10, e11, -⟩ := idx_facts t
  show V m c main_arg1 (((cfg0.win 1).blk t).view.emb (ix2 p k : S256x1024.Idx)) = _
  rw [V_main_arg1]
  refine congrArg (argH m c) (funext fun a => Fin.ext ?_)
  match a with
  | ⟨0, _⟩ => show win0_1.index t (0 : Fin 2) * 256 + 1 * p.val = R.val; omega
  | ⟨1, _⟩ => show win0_1.index t (1 : Fin 2) * 1024 + 1 * k.val = k.val; omega

theorem blkC_apply (c : Dev nD) (t : Fin cfg0.N) (p : Fin 256) (k : Fin 1024) (R : Fin 4096)
    (hR : R.val = win0_8.index t (0 : Fin 2) * 256 + p.val) : blkC m c t (ix2 p k) = argC m c (ix2 R k) := by
  obtain ⟨-, -, -, -, e20, e21, -⟩ := idx_facts t
  show V m c main_arg2 (((cfg0.win 2).blk t).view.emb (ix2 p k : S256x1024.Idx)) = _
  rw [V_main_arg2]
  refine congrArg (argC m c) (funext fun a => Fin.ext ?_)
  match a with
  | ⟨0, _⟩ => show win0_2.index t (0 : Fin 2) * 256 + 1 * p.val = R.val; omega
  | ⟨1, _⟩ => show win0_2.index t (1 : Fin 2) * 1024 + 1 * k.val = k.val; omega

/-- The resident windows' one block is the whole array. -/
theorem blkWi_apply (c : Dev nD) (t : Fin cfg0.N) (k : Fin 1024) (g : Fin 4096) : blkWi m c t (ix2 k g) = argWi m c (ix2 g k) := by
  obtain ⟨-, -, -, -, -, -, e30, e31, -⟩ := idx_facts t
  have h : @Eq S1024x4096.Idx (((cfg0.win 3).blk t).view.emb (ix2 k g : S1024x4096.Idx)) (ix2 k g) := funext fun a => Fin.ext (by
    match a with
    | ⟨0, _⟩ => show win0_3.index t (0 : Fin 2) * 1024 + 1 * k.val = k.val; omega
    | ⟨1, _⟩ => show win0_3.index t (1 : Fin 2) * 4096 + 1 * g.val = g.val; omega)
  show (V m c main_v1 : S1024x4096.Idx → EReal) (((cfg0.win 3).blk t).view.emb (ix2 k g : S1024x4096.Idx)) = _
  rw [h]
  exact hostWi m c k g

theorem blkWh_apply (c : Dev nD) (t : Fin cfg0.N) (k : Fin 1024) (g : Fin 4096) : blkWh m c t (ix2 k g) = argWh m c (ix2 g k) := by
  obtain ⟨-, -, -, -, -, -, -, -, e40, e41, -⟩ := idx_facts t
  have h : @Eq S1024x4096.Idx (((cfg0.win 4).blk t).view.emb (ix2 k g : S1024x4096.Idx)) (ix2 k g) := funext fun a => Fin.ext (by
    match a with
    | ⟨0, _⟩ => show win0_4.index t (0 : Fin 2) * 1024 + 1 * k.val = k.val; omega
    | ⟨1, _⟩ => show win0_4.index t (1 : Fin 2) * 4096 + 1 * g.val = g.val; omega)
  show (V m c main_v3 : S1024x4096.Idx → EReal) (((cfg0.win 4).blk t).view.emb (ix2 k g : S1024x4096.Idx)) = _
  rw [h]
  exact hostWh m c k g

theorem blkB_apply (c : Dev nD) (t : Fin cfg0.N) (g : Fin 4096) :
    blkB m c t (ix2 (0 : Fin 1) g) = argB1 m c (ix1 g) + argB2 m c (ix1 g) := by
  obtain ⟨-, -, -, -, -, -, -, -, -, -, e50, e51, -⟩ := idx_facts t
  have h : @Eq S1x4096.Idx (((cfg0.win 5).blk t).view.emb (ix2 (0 : Fin 1) g : S1x4096.Idx)) (ix2 (0 : Fin 1) g) := funext fun a => Fin.ext (by
    match a with
    | ⟨0, _⟩ => show win0_5.index t (0 : Fin 2) * 1 + 1 * 0 = 0; omega
    | ⟨1, _⟩ => show win0_5.index t (1 : Fin 2) * 4096 + 1 * g.val = g.val; omega)
  show (V m c main_v5 : S1x4096.Idx → EReal) (((cfg0.win 5).blk t).view.emb (ix2 (0 : Fin 1) g : S1x4096.Idx)) = _
  rw [h]
  exact hostB m c g

theorem blkG_apply (c : Dev nD) (t : Fin cfg0.N) (g : Fin 4096) : blkG m c t (ix2 (0 : Fin 1) g) = argG m c (ix1 g) := by
  obtain ⟨-, -, -, -, -, -, -, -, -, -, -, -, e60, e61, -⟩ := idx_facts t
  have h : @Eq S1x4096.Idx (((cfg0.win 6).blk t).view.emb (ix2 (0 : Fin 1) g : S1x4096.Idx)) (ix2 (0 : Fin 1) g) := funext fun a => Fin.ext (by
    match a with
    | ⟨0, _⟩ => show win0_6.index t (0 : Fin 2) * 1 + 1 * 0 = 0; omega
    | ⟨1, _⟩ => show win0_6.index t (1 : Fin 2) * 4096 + 1 * g.val = g.val; omega)
  show (V m c main_v6 : S1x4096.Idx → EReal) (((cfg0.win 6).blk t).view.emb (ix2 (0 : Fin 1) g : S1x4096.Idx)) = _
  rw [h]
  exact hostG m c g

theorem blkS_apply (c : Dev nD) (t : Fin cfg0.N) (g : Fin 4096) : blkS m c t (ix2 (0 : Fin 1) g) = argS m c (ix1 g) := by
  obtain ⟨-, -, -, -, -, -, -, -, -, -, -, -, -, -, e70, e71, -⟩ := idx_facts t
  have h : @Eq S1x4096.Idx (((cfg0.win 7).blk t).view.emb (ix2 (0 : Fin 1) g : S1x4096.Idx)) (ix2 (0 : Fin 1) g) := funext fun a => Fin.ext (by
    match a with
    | ⟨0, _⟩ => show win0_7.index t (0 : Fin 2) * 1 + 1 * 0 = 0; omega
    | ⟨1, _⟩ => show win0_7.index t (1 : Fin 2) * 4096 + 1 * g.val = g.val; omega)
  show (V m c main_v7 : S1x4096.Idx → EReal) (((cfg0.win 7).blk t).view.emb (ix2 (0 : Fin 1) g : S1x4096.Idx)) = _
  rw [h]
  exact hostS m c g

/-- Row p of a point's gates is row R of the whole arrays' gates, R the p-th row of the point's band. -/
theorem gates_band (c : Dev nD) (t : Fin cfg0.N) (p : Fin 256) (R : Fin 4096) (hR : R.val = win0_8.index t (0 : Fin 2) * 256 + p.val) :
    blockGates (blkX m c t) (blkH m c t) (blkWi m c t) (blkWh m c t) (blkB m c t) (blkG m c t) (blkS m c t) p
      = gatesRow (argX m c) (argH m c) (argWi m c) (argWh m c) (argB1 m c) (argB2 m c) (argG m c) (argS m c) R := by
  funext g
  unfold blockGates gatesRow
  have hx : (fun k => blkX m c t (ix2 p k)) = fun k => argX m c (ix2 R k) := funext fun k => blkX_apply m c t p k R hR
  have hh : (fun k => blkH m c t (ix2 p k)) = fun k => argH m c (ix2 R k) := funext fun k => blkH_apply m c t p k R hR
  have hwi : (fun g k => blkWi m c t (ix2 k g)) = fun g k => argWi m c (ix2 g k) := funext fun g => funext fun k => blkWi_apply m c t k g
  have hwh : (fun g k => blkWh m c t (ix2 k g)) = fun g k => argWh m c (ix2 g k) := funext fun g => funext fun k => blkWh_apply m c t k g
  have hb : (fun g => blkB m c t (ix2 (0 : Fin 1) g)) = fun g => argB1 m c (ix1 g) + argB2 m c (ix1 g) := funext fun g => blkB_apply m c t g
  have hg : (fun g => blkG m c t (ix2 (0 : Fin 1) g)) = fun g => argG m c (ix1 g) := funext fun g => blkG_apply m c t g
  rw [hx, hh, hwi, hwh, hb, hg, blkS_apply]

/-! ## What each point writes back -/

/-- Point t writes band t of `newH` of the arguments to the new-hidden window. -/
theorem flushedH_eq (c : Dev nD) (t : Fin cfg0.N) :
    (dats m 0 c).flushed 8 t = ((cfg0.win 8).blk t).view.read (Elt Ideal)
      (newH (argX m c) (argH m c) (argC m c) (argWi m c) (argWh m c) (argB1 m c) (argB2 m c) (argG m c) (argS m c)) := by
  rw [Cert.KernelIdeal.ValueBlocks.flushed8]
  unfold out0_8
  rw [View.canon_unit_zero origin]
  simp only [View.ld_unit_zero (S := S256x1024) origin, View.ld_unit_zero (S := S1024x4096) origin, View.ld_unit_zero (S := S1x4096) origin]
  funext j
  obtain ⟨-, -, -, -, -, -, -, -, -, -, -, -, -, -, -, -, -, -, e81, e8le⟩ := idx_facts t
  revert j; intro (j : S256x1024.Idx)
  obtain ⟨p, q, rfl⟩ : ∃ (p : Fin 256) (q : Fin 1024), j = ix2 p q := ⟨j 0, j 1, eq_ix2 j⟩
  have hp := p.isLt
  obtain ⟨R, hR⟩ : ∃ R : Fin 4096, R.val = win0_8.index t (0 : Fin 2) * 256 + p.val := ⟨⟨_, by omega⟩, rfl⟩
  have hemb : @Eq S4096x1024.Idx (((cfg0.win 8).blk t).view.emb (ix2 p q : S256x1024.Idx)) (ix2 R q) := funext fun a => Fin.ext (by
    match a with
    | ⟨0, _⟩ => show win0_8.index t (0 : Fin 2) * 256 + 1 * p.val = R.val; omega
    | ⟨1, _⟩ => show win0_8.index t (1 : Fin 2) * 1024 + 1 * q.val = q.val; omega)
  show k0_pay3 (F := Ideal) (k0_pay4 (blkX m c t) (blkH m c t) (blkWi m c t) (blkWh m c t) (blkB m c t) (blkG m c t)) (blkS m c t) (blkC m c t) (ix2 p q)
      = newH (argX m c) (argH m c) (argC m c) (argWi m c) (argWh m c) (argB1 m c) (argB2 m c) (argG m c) (argS m c)
          (((cfg0.win 8).blk t).view.emb (ix2 p q : S256x1024.Idx))
  rw [hemb, storedH_apply]
  show _ = cellH (gatesRow (argX m c) (argH m c) (argWi m c) (argWh m c) (argB1 m c) (argB2 m c) (argG m c) (argS m c) R) (fun j' => argC m c (ix2 R j')) q
  rw [gates_band m c t p R hR]
  exact congrArg (fun cr => cellH _ cr q) (funext fun j' => blkC_apply m c t p j' R hR)

/-- Point t writes band t of `newC` of the arguments to the new-cell window. -/
theorem flushedC_eq (c : Dev nD) (t : Fin cfg0.N) :
    (dats m 0 c).flushed 9 t = ((cfg0.win 9).blk t).view.read (Elt Ideal)
      (newC (argX m c) (argH m c) (argC m c) (argWi m c) (argWh m c) (argB1 m c) (argB2 m c) (argG m c) (argS m c)) := by
  rw [Cert.KernelIdeal.ValueBlocks.flushed9]
  unfold out0_9
  rw [View.canon_unit_zero origin]
  simp only [View.ld_unit_zero (S := S256x1024) origin, View.ld_unit_zero (S := S1024x4096) origin, View.ld_unit_zero (S := S1x4096) origin]
  funext j
  obtain ⟨-, -, -, -, -, -, -, -, -, -, -, -, -, -, -, -, e90, e91, e81, e8le⟩ := idx_facts t
  revert j; intro (j : S256x1024.Idx)
  obtain ⟨p, q, rfl⟩ : ∃ (p : Fin 256) (q : Fin 1024), j = ix2 p q := ⟨j 0, j 1, eq_ix2 j⟩
  have hp := p.isLt
  obtain ⟨R, hR⟩ : ∃ R : Fin 4096, R.val = win0_8.index t (0 : Fin 2) * 256 + p.val := ⟨⟨_, by omega⟩, rfl⟩
  have hemb : @Eq S4096x1024.Idx (((cfg0.win 9).blk t).view.emb (ix2 p q : S256x1024.Idx)) (ix2 R q) := funext fun a => Fin.ext (by
    match a with
    | ⟨0, _⟩ => show win0_9.index t (0 : Fin 2) * 256 + 1 * p.val = R.val; omega
    | ⟨1, _⟩ => show win0_9.index t (1 : Fin 2) * 1024 + 1 * q.val = q.val; omega)
  show k0_pay2 (F := Ideal) (k0_pay4 (blkX m c t) (blkH m c t) (blkWi m c t) (blkWh m c t) (blkB m c t) (blkG m c t)) (blkS m c t) (blkC m c t) (ix2 p q)
      = newC (argX m c) (argH m c) (argC m c) (argWi m c) (argWh m c) (argB1 m c) (argB2 m c) (argG m c) (argS m c)
          (((cfg0.win 9).blk t).view.emb (ix2 p q : S256x1024.Idx))
  rw [hemb, storedC_apply]
  show _ = cellC (gatesRow (argX m c) (argH m c) (argWi m c) (argWh m c) (argB1 m c) (argB2 m c) (argG m c) (argS m c) R) (fun j' => argC m c (ix2 R j')) q
  rw [gates_band m c t p R hR]
  exact congrArg (fun cr => cellC _ cr q) (funext fun j' => blkC_apply m c t p j' R hR)

/-! ## The sixteen bands tile each result array -/

theorem mem_blkH (t : Fin cfg0.N) (i : S4096x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v8_0).slice (win0_8.rect t)).set ↔ _
  rw [View.set_slice_whole, Rect.mem_set_unit]
  exact Iff.rfl

theorem mem_blkC (t : Fin cfg0.N) (i : S4096x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v8_1).slice (win0_9.rect t)).set ↔ _
  rw [View.set_slice_whole, Rect.mem_set_unit]
  exact Iff.rfl

/-- Row r of the array lies in the band of the point whose band number is r / 256. -/
theorem coveredH (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  obtain ⟨t, ht⟩ := idx_onto ⟨(i 0).val / 256, by omega⟩
  have q0 : win0_8.index t (0 : Fin 2) = (i 0).val / 256 := congrFun ht 0
  have q1 : win0_8.index t (1 : Fin 2) = 0 := congrFun ht 1
  refine ⟨t, flush0_8 t, ?_⟩
  rw [mem_blkH]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

theorem coveredC (i : S4096x1024.Idx) : ∃ t : Fin cfg0.N, (cfg0.win 9).flush t = true ∧ i ∈ ((cfg0.win 9).blk t).view.set := by
  have hi0 : (i 0).val < 4096 := (i 0).isLt
  have hi1 : (i 1).val < 1024 := (i 1).isLt
  obtain ⟨t, ht⟩ := idx_ontoC ⟨(i 0).val / 256, by omega⟩
  have q0 : win0_9.index t (0 : Fin 2) = (i 0).val / 256 := congrFun ht 0
  have q1 : win0_9.index t (1 : Fin 2) = 0 := congrFun ht 1
  refine ⟨t, flush0_9 t, ?_⟩
  rw [mem_blkC]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

/-! ## The arrays after the run -/

theorem finalH (c : Dev nD) : (dats m 0 c).arrAt 8 cfg0.N
    = newH (argX m c) (argH m c) (argC m c) (argWi m c) (argWh m c) (argB1 m c) (argB2 m c) (argG m c) (argS m c) :=
  (dats m 0 c).arrAt_eq_of_cover 8 _ (fun t _ => flushedH_eq m c t) coveredH

theorem finalC (c : Dev nD) : (dats m 0 c).arrAt 9 cfg0.N
    = newC (argX m c) (argH m c) (argC m c) (argWi m c) (argWh m c) (argB1 m c) (argB2 m c) (argG m c) (argS m c) :=
  (dats m 0 c).arrAt_eq_of_cover 9 _ (fun t _ => flushedC_eq m c t) coveredC

/-- Every weakly fair execution of the kernel program ends with the two result arrays at `newH` and `newC` of the
    arguments, and the arguments unchanged. -/
theorem run : θ_run defs (onTc (τ := τ) (main (F := Ideal))) ⟨m, fun _ => 0, ρ⟩ fun r => ∀ c : Dev nD,
      r.2.mem ((c : Thread nD τ).loc main_v8_0)
        = newH (argX m c) (argH m c) (argC m c) (argWi m c) (argWh m c) (argB1 m c) (argB2 m c) (argG m c) (argS m c)
      ∧ r.2.mem ((c : Thread nD τ).loc main_v8_1)
        = newC (argX m c) (argH m c) (argC m c) (argWi m c) (argWh m c) (argB1 m c) (argB2 m c) (argG m c) (argS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (finalH m c), (h c).2.1.trans (finalC m c), (h c).2.2⟩)
    (Cert.KernelIdeal.ValueBlocks.run_blocks m ρ)

end Cert.LnLstm.KernelArray

end
-- ==== Proof.RefValue.lean ====
/-
  The reference program's two results, read entry by entry over the extended reals, are `newH` and `newC` of its arguments.

  Row r of the reference's 4096 × 4096 pre-activations is `pre` of row r of the two inputs against the rows of the two
  weight matrices (it contracts the second axis of both operands), with the two biases added one after the other where the
  specification adds their sum: addition on the extended reals is associative (`preRow_eq`). Its row mean and its mean squared
  deviation are the host's sums divided by 4096 (`mean_eq`, `var_eq`; the sums start from the zero word). The normalised,
  gained and shifted gates are `gatesRow` (`gates_eq`). The reference spells the logistic function as 1 / (1 + exp(−a)), which
  is what the logistic function is on the extended reals once the word of 1.0 is read as 1 (`sigmoid_eq`).
-/
import proofs.«140336_j55903294325169_1_alg».proof.Proof.Gen.ReferenceIdeal.Read
import proofs.«140336_j55903294325169_1_alg».proof.Proof.Spec
import Idealize.ShloMosaic.Lib.ValueIdx
import Idealize.ShloMosaic.PureOps.Ideal.Laws
import Idealize.ShloMosaic.PureOps.IdealRules

noncomputable section

namespace Cert.LnLstm.RefValue

open Idealize.ShloMosaic Idealize.ShloMosaic.ValueIdx Cert.ReferenceIdeal Cert.ReferenceIdeal.Read Cert.LnLstm

/-- Two rank-2 indices with the same coordinates are equal. -/
theorem idx2_ext {n0 n1 : ℕ} (i j : (⟨2, ![n0, n1]⟩ : Shape).Idx) (h0 : (i 0).val = (j 0).val) (h1 : (i 1).val = (j 1).val) : i = j :=
  funext fun a => Fin.ext (by
    match a with
    | ⟨0, _⟩ => exact h0
    | ⟨1, _⟩ => exact h1)

/-- Two rank-1 indices with the same coordinate are equal. -/
theorem idx1_ext {n : ℕ} (i j : (⟨1, ![n]⟩ : Shape).Idx) (h0 : (i 0).val = (j 0).val) : i = j :=
  funext fun a => Fin.ext (by
    match a with
    | ⟨0, _⟩ => exact h0)

/-- The word of 1.0 is the number 1. -/
theorem one_f32 : Ideal.ofBits .f32 0x3F800000#32 = 1 := IdealRules.sign_bit.ideal_onePat .f32

/-- The reference's spelling of the logistic function. -/
theorem sigmoid_eq (a : EReal) :
    Ideal.div (Ideal.ofBits .f32 0x3F800000#32) (Ideal.ofBits .f32 0x3F800000#32 + Ideal.exp (-a)) = Ideal.logistic a := by
  rw [one_f32]; rfl

variable (x0 x1 x2 x3 x4 : (⟨S4096x1024, .f32⟩ : BufTy).Contents (Elt Ideal)) (x5 x6 x7 x8 : (⟨S4096, .f32⟩ : BufTy).Contents (Elt Ideal))

/-- Row r of the reference's pre-activations. -/
def preRow (r : Fin 4096) (g : Fin 4096) : EReal := val_main_v8 (F := Ideal) x0 x1 x3 x4 x5 x6 (ix2 r g)

theorem preRow_eq (r : Fin 4096) :
    preRow x0 x1 x3 x4 x5 x6 r = pre (fun k => x0 (ix2 r k)) (fun k => x1 (ix2 r k)) (fun g k => x3 (ix2 g k)) (fun g k => x4 (ix2 g k))
      (fun g => x5 (ix1 g) + x6 (ix1 g)) := by
  funext g
  unfold preRow pre
  rw [val_main_v8_apply, val_main_v5_apply, val_main_v2_apply, val_main_v0_apply, val_main_v1_apply, val_main_v4_apply,
    val_main_v3_apply, val_main_v7_apply, val_main_v6_apply]
  have e0 : ∀ k, lidx_main_v0 (ix2 r g) k = ix2 r k := fun k => idx2_ext _ _ rfl rfl
  have e1 : ∀ k, ridx_main_v0 (ix2 r g) k = ix2 g k := fun k => idx2_ext _ _ rfl rfl
  have e2 : ∀ k, lidx_main_v1 (ix2 r g) k = ix2 r k := fun k => idx2_ext _ _ rfl rfl
  have e3 : ∀ k, ridx_main_v1 (ix2 r g) k = ix2 g k := fun k => idx2_ext _ _ rfl rfl
  have e4 : idx_main_v3 (idx_main_v4 (ix2 r g)) = ix1 g := idx1_ext _ _ rfl
  have e5 : idx_main_v6 (idx_main_v7 (ix2 r g)) = ix1 g := idx1_ext _ _ rfl
  simp only [Ideal.addf_def, e0, e1, e2, e3, e4, e5]
  exact add_assoc _ _ _

/-- The reference's row mean, kept as a column. -/
theorem mean_eq (r : Fin 4096) (u : Fin 1) :
    val_main_v12 (F := Ideal) x0 x1 x3 x4 x5 x6 (ix2 r u) = mean (preRow x0 x1 x3 x4 x5 x6 r) := by
  rw [val_main_v12_apply, val_main_v10_apply, val_main_v11_apply, val_main_cst_0_apply, val_main_v9_apply, val_main_cst_apply]
  unfold mean preRow
  have e : ∀ k, idx_main_v9 (idx_main_v10 (ix2 r u)) k = ix2 r k := fun k => idx2_ext _ _ rfl rfl
  simp only [Ideal.hostDivf_def, Ideal.ofBits_def, Ideal.ofBits_zero_f32, zero_add, e]

/-- The reference's centred pre-activations (it forms them twice, through two broadcasts of the same mean). -/
theorem centredA_eq (r g : Fin 4096) :
    val_main_v14 (F := Ideal) x0 x1 x3 x4 x5 x6 (ix2 r g) = preRow x0 x1 x3 x4 x5 x6 r g - mean (preRow x0 x1 x3 x4 x5 x6 r) := by
  rw [val_main_v14_apply, val_main_v13_apply]
  have e : idx_main_v13 (ix2 r g) = ix2 r (0 : Fin 1) := idx2_ext _ _ rfl rfl
  rw [e, mean_eq]
  rfl

theorem centredB_eq (r g : Fin 4096) :
    val_main_v21 (F := Ideal) x0 x1 x3 x4 x5 x6 (ix2 r g) = preRow x0 x1 x3 x4 x5 x6 r g - mean (preRow x0 x1 x3 x4 x5 x6 r) := by
  rw [val_main_v21_apply, val_main_v20_apply]
  have e : idx_main_v20 (ix2 r g) = ix2 r (0 : Fin 1) := idx2_ext _ _ rfl rfl
  rw [e, mean_eq]
  rfl

/-- The reference's row variance, kept as a column. -/
theorem var_eq (r : Fin 4096) (u : Fin 1) :
    val_main_v19 (F := Ideal) x0 x1 x3 x4 x5 x6 (ix2 r u) = var (preRow x0 x1 x3 x4 x5 x6 r) := by
  rw [val_main_v19_apply, val_main_v17_apply, val_main_v18_apply, val_main_cst_2_apply, val_main_v16_apply, val_main_cst_1_apply]
  unfold var
  have e : ∀ k, idx_main_v16 (idx_main_v17 (ix2 r u)) k = ix2 r k := fun k => idx2_ext _ _ rfl rfl
  simp only [Ideal.hostDivf_def, Ideal.ofBits_def, Ideal.ofBits_zero_f32, zero_add, e, val_main_v15_apply, Ideal.mulf_def, centredA_eq]

/-- The reference's normalised, gained and shifted gates. -/
theorem gates_eq (r g : Fin 4096) :
    val_main_v32 (F := Ideal) x0 x1 x3 x4 x5 x6 x7 x8 (ix2 r g) = gatesRow x0 x1 x3 x4 x5 x6 x7 x8 r g := by
  rw [val_main_v32_apply, val_main_v29_apply, val_main_v26_apply, val_main_v25_apply, val_main_v24_apply, val_main_v23_apply,
    val_main_v22_apply, val_main_cst_3_apply, val_main_v28_apply, val_main_v27_apply, val_main_v31_apply, val_main_v30_apply]
  have e1 : idx_main_v25 (ix2 r g) = ix2 r (0 : Fin 1) := idx2_ext _ _ rfl rfl
  have e2 : idx_main_v27 (idx_main_v28 (ix2 r g)) = ix1 g := idx1_ext _ _ rfl
  have e3 : idx_main_v30 (idx_main_v31 (ix2 r g)) = ix1 g := idx1_ext _ _ rfl
  rw [e1, e2, e3, var_eq, centredB_eq]
  unfold gatesRow scaled
  rw [← preRow_eq]
  simp only [Ideal.addf_def, Ideal.mulf_def, Ideal.hostUnary_rsqrt_def, Ideal.ofBits_def]

/-- The reference's new cell array is `newC` of its arguments. -/
theorem ref_newC : val_main_v52 (F := Ideal) x0 x1 x2 x3 x4 x5 x6 x7 x8 = newC x0 x1 x2 x3 x4 x5 x6 x7 x8 := by
  funext i
  obtain ⟨r, j, rfl⟩ : ∃ (r : Fin 4096) (j : Fin 1024), i = ix2 r j := ⟨i 0, i 1, eq_ix2 i⟩
  show _ = cellC (gatesRow x0 x1 x3 x4 x5 x6 x7 x8 r) (fun j' => x2 (ix2 r j')) j
  rw [val_main_v52_apply, val_main_v43_apply, val_main_v42_apply, val_main_v41_apply, val_main_cst_5_apply, val_main_v40_apply,
    val_main_v39_apply, val_main_cst_4_apply, val_main_v38_apply, val_main_v37_apply, val_main_v34_apply,
    val_main_v51_apply, val_main_v49_apply, val_main_v48_apply, val_main_cst_7_apply, val_main_v47_apply, val_main_v46_apply,
    val_main_cst_6_apply, val_main_v45_apply, val_main_v44_apply, val_main_v33_apply, val_main_v50_apply, val_main_v35_apply]
  have b0 : idx_main_v33 (ix2 r j) = ix2 r (col 0 (by omega) j) := idx2_ext _ _ rfl rfl
  have b1 : idx_main_v34 (ix2 r j) = ix2 r (col 1024 (by omega) j) := idx2_ext _ _ rfl (by show 1024 + j.val = j.val + 1024; omega)
  have b2 : idx_main_v35 (ix2 r j) = ix2 r (col 2048 (by omega) j) := idx2_ext _ _ rfl (by show 2048 + j.val = j.val + 2048; omega)
  rw [b0, b1, b2, gates_eq, gates_eq, gates_eq]
  unfold cellC
  simp only [Ideal.addf_def, Ideal.mulf_def, Ideal.hostDivf_def, Ideal.hostUnary_exp_def, Ideal.hostNegf_def, Ideal.negf_def,
    Ideal.hostUnary_tanh_def, Ideal.ofBits_def, sigmoid_eq]

/-- The reference's new hidden array is `newH` of its arguments. -/
theorem ref_newH : val_main_v60 (F := Ideal) x0 x1 x2 x3 x4 x5 x6 x7 x8 = newH x0 x1 x2 x3 x4 x5 x6 x7 x8 := by
  funext i
  obtain ⟨r, j, rfl⟩ : ∃ (r : Fin 4096) (j : Fin 1024), i = ix2 r j := ⟨i 0, i 1, eq_ix2 i⟩
  show _ = cellH (gatesRow x0 x1 x3 x4 x5 x6 x7 x8 r) (fun j' => x2 (ix2 r j')) j
  rw [val_main_v60_apply, val_main_v58_apply, val_main_v57_apply, val_main_cst_9_apply, val_main_v56_apply, val_main_v55_apply,
    val_main_cst_8_apply, val_main_v54_apply, val_main_v53_apply, val_main_v36_apply, val_main_v59_apply, ref_newC]
  have b3 : idx_main_v36 (ix2 r j) = ix2 r (col 3072 (by omega) j) := idx2_ext _ _ rfl (by show 3072 + j.val = j.val + 3072; omega)
  rw [b3, gates_eq]
  unfold cellH
  show _ = Ideal.logistic (gatesRow x0 x1 x3 x4 x5 x6 x7 x8 r (col 3072 (by omega) j))
      * Ideal.tanh (newC x0 x1 x2 x3 x4 x5 x6 x7 x8 (ix2 r j))
  simp only [Ideal.addf_def, Ideal.mulf_def, Ideal.hostDivf_def, Ideal.hostUnary_exp_def, Ideal.hostNegf_def, Ideal.negf_def,
    Ideal.hostUnary_tanh_def, Ideal.ofBits_def, sigmoid_eq]

end Cert.LnLstm.RefValue

end
-- ==== Proof.lean ====
/-
  A layer-normalised LSTM cell: the kernel against its reference, over the extended reals.

  Both programs compute, for every batch row, the 4096 gate pre-activations x·Wiᵀ + h·Whᵀ + b_ih + b_hh, normalise them over
  the gate axis (mean, mean squared deviation, reciprocal square root of the latter plus a small constant), multiply by a gain
  and add a shift, and from the four bands of 1024 columns form the new cell state σ(f)·c + σ(i)·tanh(g) and the new hidden
  state σ(o)·tanh(new cell). `Cert.LnLstm.newH` and `Cert.LnLstm.newC` (Proof/Spec.lean) are those two arrays as functions of
  the nine argument arrays, entry by entry.

  The kernel works on sixteen bands of 256 rows with the weights transposed beforehand and the two biases summed beforehand;
  its changes of float format are the identity on the extended reals, its matrix products and lane sums are finite sums
  (Proof/KernelPayload.lean), and the sixteen bands tile the result arrays (Proof/KernelArray.lean). The reference contracts
  the untransposed weights, adds the biases one after the other (associativity of addition joins the two spellings) and
  spells the logistic function as 1 / (1 + exp(−a)), which is the logistic function (Proof/RefValue.lean). No law used needs
  finiteness, so the precondition is never opened. The two programs end with the same two arrays; the three frames are the
  programs' runs with the results dropped, and there is no rewrite to preserve.
-/
import proofs.«140336_j55903294325169_1_alg».proof.Defs
import proofs.«140336_j55903294325169_1_alg».proof.Proof.Gen.Kernel
import proofs.«140336_j55903294325169_1_alg».proof.Proof.Gen.Kernel.Skeleton
import proofs.«140336_j55903294325169_1_alg».proof.Proof.Gen.Kernel.Launch
import proofs.«140336_j55903294325169_1_alg».proof.Proof.Gen.Kernel.Points
import proofs.«140336_j55903294325169_1_alg».proof.Proof.Gen.Kernel.Frame
import proofs.«140336_j55903294325169_1_alg».proof.Proof.Gen.KernelIdeal
import proofs.«140336_j55903294325169_1_alg».proof.Proof.Gen.KernelIdeal.Skeleton
import proofs.«140336_j55903294325169_1_alg».proof.Proof.Gen.KernelIdeal.Launch
import proofs.«140336_j55903294325169_1_alg».proof.Proof.Gen.KernelIdeal.Points
import proofs.«140336_j55903294325169_1_alg».proof.Proof.Gen.KernelIdeal.Frame
import proofs.«140336_j55903294325169_1_alg».proof.Proof.Gen.ReferenceIdeal
import proofs.«140336_j55903294325169_1_alg».proof.Proof.Gen.Pre_finite_inputs
import proofs.«140336_j55903294325169_1_alg».proof.Proof.Gen.ReferenceIdeal.Run
import proofs.«140336_j55903294325169_1_alg».proof.Proof.Gen.ReferenceIdeal.Read
import proofs.«140336_j55903294325169_1_alg».proof.Proof.KernelArray
import proofs.«140336_j55903294325169_1_alg».proof.Proof.RefValue
import Idealize.ShloMosaic.Adequacy
import Idealize.ShloMosaic.Init

noncomputable section

namespace Cert.Proof

open Idealize.ShloMosaic Idealize.SL.Sem Cert.Kernel

/-- The word-level kernel terminates without a fault and leaves its arguments unchanged. -/
theorem frame_kernel : Cert.frame_Kernel := fun m ρ _ => Cert.Kernel.Gen.frame m ρ

/-- So does the kernel over the extended reals. -/
theorem frame_kernelIdeal : Cert.frame_KernelIdeal := fun m ρ _ => Cert.KernelIdeal.Gen.frame m ρ

/-- The reference's run, with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel over the extended reals was printed from the word-level kernel with no rewrite. -/
theorem preserves : Cert.preserves_Kernel_KernelIdeal := trivial

/-- From memories that agree on the nine arguments both programs end with the new hidden array at `newH` and the new cell
    array at `newC` of those arguments. -/
theorem algebraic : Cert.algebraic_KernelIdeal_ReferenceIdeal := by
  intro m ρ m' ρ' _ hagree
  refine ⟨fun c => Cert.LnLstm.newH (Cert.LnLstm.KernelArray.argX m c) (Cert.LnLstm.KernelArray.argH m c)
      (Cert.LnLstm.KernelArray.argC m c) (Cert.LnLstm.KernelArray.argWi m c) (Cert.LnLstm.KernelArray.argWh m c)
      (Cert.LnLstm.KernelArray.argB1 m c) (Cert.LnLstm.KernelArray.argB2 m c) (Cert.LnLstm.KernelArray.argG m c)
      (Cert.LnLstm.KernelArray.argS m c),
    fun c => Cert.LnLstm.newC (Cert.LnLstm.KernelArray.argX m c) (Cert.LnLstm.KernelArray.argH m c)
      (Cert.LnLstm.KernelArray.argC m c) (Cert.LnLstm.KernelArray.argWi m c) (Cert.LnLstm.KernelArray.argWh m c)
      (Cert.LnLstm.KernelArray.argB1 m c) (Cert.LnLstm.KernelArray.argB2 m c) (Cert.LnLstm.KernelArray.argG m c)
      (Cert.LnLstm.KernelArray.argS m c),
    Cert.LnLstm.KernelArray.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8⟩ := hagree c
    rw [(h c).1, Cert.ReferenceIdeal.Read.val_main_v60_eq, Cert.LnLstm.RefValue.ref_newH, a0, a1, a2, a3, a4, a5, a6, a7, a8]
  · obtain ⟨a0, a1, a2, a3, a4, a5, a6, a7, a8⟩ := hagree c
    rw [(h c).2.1, Cert.ReferenceIdeal.Read.val_main_v52_eq, Cert.LnLstm.RefValue.ref_newC, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
